-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x16384 : Shape := ⟨2, ![1024, 16384]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_

variable [Facts]

def fn {F : FTy → Type} [FloatOps F] (main_arg0 : FVec F S2048x1024 .f32) (main_arg1 : FVec F S1024x16384 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  main_v8
-- ==== Kernel.lean ====
abbrev S2048x1024 : Shape := ⟨2, ![2048, 1024]⟩
abbrev S1024x16384 : Shape := ⟨2, ![1024, 16384]⟩
abbrev S2048x16384 : Shape := ⟨2, ![2048, 16384]⟩
abbrev S1024x1024 : Shape := ⟨2, ![1024, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x16384, .f32⟩
  | .hbm, ⟨2, _⟩ => ⟨S2048x16384, .f32⟩
  | .local _ .vmem, ⟨0, _⟩ => ⟨S2048x1024, .f32⟩
  | .local _ .vmem, ⟨1, _⟩ => ⟨S1024x1024, .f32⟩
  | .local _ .vmem, ⟨2, _⟩ => ⟨S1024x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  shapeCasts_S2048x1_S2048x1 : S2048x1.ShapeCasts S2048x1
  broadcasts_S2048x1_S2048x1024 : S2048x1.Broadcasts S2048x1024
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  inb_S2048x1024_S512x1024_0_0 : ∀ a, (![0, 0] : Fin 2 → Nat) a + S512x1024.size a ≤ S2048x1024.size a
  h_S512x1024 : 0 < S512x1024.numel
  broadcasts_S1x1024_S512x1024 : S1x1024.Broadcasts S512x1024
  inb_S2048x1024_S512x1024_512_0 : ∀ a, (![512, 0] : Fin 2 → Nat) a + S512x1024.size a ≤ S2048x1024.size a
  inb_S2048x1024_S512x1024_1024_0 : ∀ a, (![1024, 0] : Fin 2 → Nat) a + S512x1024.size a ≤ S2048x1024.size a
  inb_S2048x1024_S512x1024_1536_0 : ∀ a, (![1536, 0] : Fin 2 → Nat) a + S512x1024.size a ≤ S2048x1024.size a
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .f32 = 32 ∨ (Rect.block (s := S2048x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x16384.size a
  hwx0_1 : ∀ i : grid0.Coords, EltTy.bits .f32 = 32 ∨ (Rect.block (s := S1024x16384) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x16384.size a
  hwx0_2 : ∀ i : grid0.Coords, EltTy.bits .f32 = 32 ∨ (Rect.block (s := S2048x16384) S2048x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024x16384 : Shape := ⟨2, ![1024, 16384]⟩
abbrev S_ : Shape := ⟨0, ![]⟩
abbrev S2048 : Shape := ⟨1, ![2048]⟩
abbrev S2048x1 : Shape := ⟨2, ![2048, 1]⟩
abbrev S16384 : Shape := ⟨1, ![16384]⟩
abbrev S1x16384 : Shape := ⟨2, ![1, 16384]⟩
abbrev S2048x16384 : Shape := ⟨2, ![2048, 16384]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x16384, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S1024x16384, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S2048x16384, .f32⟩
  | .hbm, ⟨11, _⟩ => ⟨S2048x16384, .f32⟩
  | .hbm, ⟨12, _⟩ => ⟨S2048x16384, .f32⟩
  | .hbm, ⟨13, _⟩ => ⟨S2048x16384, .f32⟩
  | .hbm, ⟨14, _⟩ => ⟨S_, .f32⟩
  | .hbm, ⟨15, _⟩ => ⟨S2048x16384, .f32⟩
  | .hbm, ⟨16, _⟩ => ⟨S2048x16384, .f32⟩
  | .hbm, ⟨17, _⟩ => ⟨S2048x16384, .f32⟩
  | .hbm, ⟨18, _⟩ => ⟨S_, .f32⟩
  | .hbm, ⟨19, _⟩ => ⟨S2048x16384, .f32⟩
  | .hbm, ⟨20, _⟩ => ⟨S2048x16384, .f32⟩
  | .hbm, ⟨21, _⟩ => ⟨S2048x16384, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  reducesTo_S1024x16384_S16384_d0 : S1024x16384.ReducesTo [0] S16384
  bcast_S16384_S1x16384_1 : S16384.BroadcastsInDim S1x16384 (![1] : Fin 1 → Fin S1x16384.rank)
  bcast_S2048x1_S2048x16384_0_1 : S2048x1.BroadcastsInDim S2048x16384 (![0, 1] : Fin 2 → Fin S2048x16384.rank)
  bcast_S1x16384_S2048x16384_0_1 : S1x16384.BroadcastsInDim S2048x16384 (![0, 1] : Fin 2 → Fin S2048x16384.rank)
  bcast_S_S2048x16384 : S_.BroadcastsInDim S2048x16384 (![] : Fin 0 → Fin S2048x16384.rank)
  dot_S2048x1024_S1024x16384_S2048x16384_1_0_0_1_n_n_wf : DotDims.WF S2048x1024 S1024x16384 S2048x16384 [1] [0] [0] [1] [] []

variable [Facts₀]

def dot_S2048x1024_S1024x16384_S2048x16384_1_0_0_1_n_n : DotDims S2048x1024 S1024x16384 S2048x16384 where
  lhsContracting := [1]
  rhsContracting := [0]
  lhsNonContracting := [0]
  rhsNonContracting := [1]
  lhsBatch := []
  rhsBatch := []
  wf := dot_S2048x1024_S1024x16384_S2048x16384_1_0_0_1_n_n_wf

class Facts : Prop extends Facts₀ where

variable [Facts]
-- ==== Proof.EuclidSpec.lean ====
/-
  The Euclidean layer on the extended reals.

  For a matrix `X` of `M` rows of `K` numbers and a matrix `W` of `N` columns of `K` numbers, the squared distance
  between row `r` of `X` and column `o` of `W` is spelt by both programs through the expansion
  `‖x‖² + ‖w‖² - 2·⟨x, w⟩` and floored at a small positive constant; the layer's entry is its square root. One
  program takes the root directly, the other multiplies the floored number `d` by its reciprocal root. For a real
  `d > 0` the two agree, `d · (√d)⁻¹ = √d`; at `d = +∞` they do not (`+∞ · 0 = 0` on the extended reals), so the law
  needs every entry of both matrices to be a real number: then the three sums are real and so is `d`.
-/
import Idealize.ShloMosaic.Lib.ValueIdx
import Idealize.ShloMosaic.PureOps.Ideal.Laws

noncomputable section

namespace Cert.Euclid

open Idealize.ShloMosaic Idealize.ShloMosaic.ValueIdx

/-- The factor of the cross term: the pattern of `2.0`. -/
def two : EReal := Ideal.ofBits .f32 0x40000000#32

/-- The floor under the squared distance: the single-precision pattern nearest `10⁻¹²`. -/
def floorSq : EReal := Ideal.ofBits .f32 0x2B8CBCCC#32

/-- The cross term's factor is the real number two. -/
theorem two_eq : two = ((2 : ℝ) : EReal) := by
  unfold two
  simp [Ideal.ofBits, Ideal.ieee, -EReal.coe_mul]; norm_num

/-- The floor is a positive real number. -/
theorem floorSq_pos : ∃ e : ℝ, 0 < e ∧ floorSq = (e : EReal) := by
  refine ⟨(9223372 : ℝ) * (2 : ℝ) ^ (-63 : ℤ), by positivity, ?_⟩
  unfold floorSq
  simp [Ideal.ofBits, Ideal.ieee, -EReal.coe_mul]

/-- A finite sum of real numbers, taken on the extended reals, is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section Layer

variable {M K N : ℕ}

/-- The squared length of row `r`. -/
def rowSq (X : (⟨2, ![M, K]⟩ : Shape).Idx → EReal) (r : Fin M) : EReal := ∑ k : Fin K, X (ix2 r k) * X (ix2 r k)

/-- The squared length of column `o`. -/
def colSq (W : (⟨2, ![K, N]⟩ : Shape).Idx → EReal) (o : Fin N) : EReal := ∑ k : Fin K, W (ix2 k o) * W (ix2 k o)

/-- The inner product of row `r` with column `o`. -/
def inner (X : (⟨2, ![M, K]⟩ : Shape).Idx → EReal) (W : (⟨2, ![K, N]⟩ : Shape).Idx → EReal) (r : Fin M) (o : Fin N) : EReal :=
  ∑ k : Fin K, X (ix2 r k) * W (ix2 k o)

/-- The floored squared distance from three numbers: a row's squared length, a column's, and their inner product. -/
def floored (a b c : EReal) : EReal := max (a + b - two * c) floorSq

/-- The floored squared distance between row `r` and column `o`. -/
def sqDist (X : (⟨2, ![M, K]⟩ : Shape).Idx → EReal) (W : (⟨2, ![K, N]⟩ : Shape).Idx → EReal) (r : Fin M) (o : Fin N) : EReal :=
  floored (rowSq X r) (colSq W o) (inner X W r o)

/-- The layer's entry: the root of the floored squared distance. -/
def dist (X : (⟨2, ![M, K]⟩ : Shape).Idx → EReal) (W : (⟨2, ![K, N]⟩ : Shape).Idx → EReal) (r : Fin M) (o : Fin N) : EReal :=
  Ideal.sqrt (sqDist X W r o)

/-- A number times its reciprocal root. -/
def timesRsqrt (d : EReal) : EReal := d * Ideal.rsqrt d

/-- The same entry spelt as the floored squared distance times its reciprocal root. -/
def distByRsqrt (X : (⟨2, ![M, K]⟩ : Shape).Idx → EReal) (W : (⟨2, ![K, N]⟩ : Shape).Idx → EReal) (r : Fin M) (o : Fin N) : EReal :=
  timesRsqrt (sqDist X W r o)

/-- For a positive real `d`, `d · (√d)⁻¹ = √d` on the extended reals. -/
theorem mul_rsqrt_eq_sqrt_of_pos {d : ℝ} (hd : 0 < d) : (d : EReal) * Ideal.rsqrt (d : EReal) = Ideal.sqrt (d : EReal) := by
  rw [Ideal.rsqrt_coe, Ideal.sqrt_coe, if_neg (not_lt.mpr hd.le), if_neg hd.ne', if_neg (not_lt.mpr hd.le), ← EReal.coe_mul]
  congr 1
  have hs : 0 < Real.sqrt d := Real.sqrt_pos.mpr hd
  calc d * (Real.sqrt d)⁻¹ = Real.sqrt d * Real.sqrt d * (Real.sqrt d)⁻¹ := by rw [Real.mul_self_sqrt hd.le]
    _ = Real.sqrt d := by field_simp

/-- With real entries the two spellings of the layer agree. -/
theorem distByRsqrt_eq_dist (X : (⟨2, ![M, K]⟩ : Shape).Idx → EReal) (W : (⟨2, ![K, N]⟩ : Shape).Idx → EReal)
    (hX : ∀ i, ∃ x : ℝ, X i = (x : EReal)) (hW : ∀ i, ∃ w : ℝ, W i = (w : EReal)) (r : Fin M) (o : Fin N) :
    distByRsqrt X W r o = dist X W r o := by
  choose x hx using hX
  choose w hw using hW
  obtain ⟨e, he, hfe⟩ := floorSq_pos
  have ha : rowSq X r = ((∑ k : Fin K, x (ix2 r k) * x (ix2 r k) : ℝ) : EReal) := by
    unfold rowSq; simp only [hx, ← EReal.coe_mul]; exact sum_coe _ _
  have hb : colSq W o = ((∑ k : Fin K, w (ix2 k o) * w (ix2 k o) : ℝ) : EReal) := by
    unfold colSq; simp only [hw, ← EReal.coe_mul]; exact sum_coe _ _
  have hc : inner X W r o = ((∑ k : Fin K, x (ix2 r k) * w (ix2 k o) : ℝ) : EReal) := by
    unfold inner; simp only [hx, hw, ← EReal.coe_mul]; exact sum_coe _ _
  have hd : ∃ d : ℝ, 0 < d ∧ sqDist X W r o = (d : EReal) := by
    refine ⟨max ((∑ k : Fin K, x (ix2 r k) * x (ix2 r k)) + (∑ k : Fin K, w (ix2 k o) * w (ix2 k o))
        - 2 * (∑ k : Fin K, x (ix2 r k) * w (ix2 k o))) e, lt_max_of_lt_right he, ?_⟩
    unfold sqDist floored
    rw [ha, hb, hc, two_eq, hfe, ← EReal.coe_add, ← EReal.coe_mul, ← EReal.coe_sub,
      ← EReal.coe_strictMono.monotone.map_max]
  obtain ⟨d, hdpos, hdeq⟩ := hd
  unfold distByRsqrt timesRsqrt dist
  rw [hdeq]
  exact mul_rsqrt_eq_sqrt_of_pos hdpos

end Layer

end Cert.Euclid

end
-- ==== Proof.Finite.lean ====
/-
  The precondition read back: every entry of both inputs is a real number.

  The precondition compares the absolute value of every entry of `x` and of the weights with `+∞` and takes the
  conjunction of all comparisons. On the extended reals `max a (-a) < +∞` holds exactly when `a` is neither
  infinity, that is, when `a` is a real number.
-/
import proofs.«134917_g25649544691929_pilotgen1_637_14_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

/-- The scalar shape has one index. -/
instance : Subsingleton S_.Idx := ⟨fun a b => funext fun d => d.elim0⟩

/-- The pattern the comparison is made against is `+∞`. -/
theorem ofBits_inf : Ideal.ofBits .f32 0x7F800000#32 = (⊤ : EReal) := by
  simp [Ideal.ofBits, Ideal.ieee]

/-- An extended real whose absolute value is below `+∞` is a real number. -/
theorem real_of_abs_lt_top (a : EReal) (h : max a (-a) < ⊤) : ∃ r : ℝ, a = (r : EReal) := by
  induction a using EReal.rec with
  | bot => simp at h
  | top => simp at h
  | coe r => exact ⟨r, rfl⟩

/-- The comparison of one entry, as the precondition makes it, says the entry is real. -/
theorem real_of_cmp (a : EReal)
    (h : FloatOps.cmpf (F := Ideal) (φ := .f32) .olt (FloatOps.hostAbsf (F := Ideal) (φ := .f32) a) (Ideal.ofBits .f32 0x7F800000#32) = 1#1) :
    ∃ r : ℝ, a = (r : EReal) := by
  refine real_of_abs_lt_top a ?_
  rw [Ideal.cmpf_def, ofBits_inf] at h
  have h' : decide (FloatOps.hostAbsf (F := Ideal) (φ := .f32) a < (⊤ : EReal)) = true := by
    by_contra hc
    simp only [Ideal.cmp, Bool.not_eq_true] at h hc
    rw [hc] at h
    exact absurd h (by decide)
  exact of_decide_eq_true h'

variable [Cert.Pre_finite_inputs.Facts]

/-- Under the precondition both inputs hold real numbers only. -/
theorem entries_real (X : FVec Ideal S2048x1024 .f32) (W : FVec Ideal S1024x16384 .f32)
    (h : Cert.Pre_finite_inputs.fn (F := Ideal) X W = fun _ => 1#1) :
    (∀ i, ∃ x : ℝ, X i = (x : EReal)) ∧ (∀ i, ∃ w : ℝ, W i = (w : EReal)) := by
  have h0 := congrFun h ix0
  dsimp only [Cert.Pre_finite_inputs.fn] at h0
  obtain ⟨hX, hW⟩ := IntOp.andi_eq_one.1 h0
  constructor
  · intro i
    exact real_of_cmp (X i) (Host.reduce_andi_all _ _ _ _ _ hX i)
  · intro i
    exact real_of_cmp (W i) (Host.reduce_andi_all _ _ _ _ _ hW i)

end Cert.Pre_finite_inputs.Finite

end
-- ==== Proof.RefValue.lean ====
/-
  The reference program read at one element: the root of the floored squared distance.

  The host program squares `x` and sums along its rows, squares the weights and sums down their columns, lays the two
  sums along a 2048 × 16384 array, subtracts twice the matrix product, floors the result at the small constant and
  takes the square root. Read at (r, o) that is the root of the floored combination of the squared length of row `r`,
  the squared length of column `o` and their inner product.
-/
import proofs.«134917_g25649544691929_pilotgen1_637_14_alg».proof.Proof.Gen.ReferenceIdeal.Read
import proofs.«134917_g25649544691929_pilotgen1_637_14_alg».proof.Proof.EuclidSpec

noncomputable section

namespace Cert.ReferenceIdeal.RefValue

open Cert.ReferenceIdeal Cert.ReferenceIdeal.Gen Idealize.ShloMosaic Idealize.ShloMosaic.ValueIdx

/-- The reference's result at (r, o). -/
theorem result_apply (x0 : (⟨S2048x1024, .f32⟩ : BufTy).Contents (Elt Ideal)) (x1 : (⟨S1024x16384, .f32⟩ : BufTy).Contents (Elt Ideal))
    (r : Fin 2048) (o : Fin 16384) :
    Read.val_main_v15 (F := Ideal) x0 x1 (ix2 r o) = Euclid.dist (M := 2048) (K := 1024) (N := 16384) x0 x1 r o := by
  have e1 : ∀ k : Fin 1024, Read.idx_main_v1 (Read.idx_main_v2 (Read.idx_main_v7 (ix2 r o))) k = ix2 r k := fun k =>
    funext fun a => Fin.ext (by match a with | ⟨0, _⟩ => rfl | ⟨1, _⟩ => rfl)
  have e4 : ∀ k : Fin 1024, Read.idx_main_v4 (Read.idx_main_v5 (Read.idx_main_v8 (ix2 r o))) k = ix2 k o := fun k =>
    funext fun a => Fin.ext (by match a with | ⟨0, _⟩ => rfl | ⟨1, _⟩ => rfl)
  have el : ∀ k : Fin 1024, Read.lidx_main_v6 (ix2 r o) k = ix2 r k := fun k =>
    funext fun a => Fin.ext (by match a with | ⟨0, _⟩ => rfl | ⟨1, _⟩ => rfl)
  have er : ∀ k : Fin 1024, Read.ridx_main_v6 (ix2 r o) k = ix2 k o := fun k =>
    funext fun a => Fin.ext (by match a with | ⟨0, _⟩ => rfl | ⟨1, _⟩ => rfl)
  rw [Read.val_main_v15_apply, Read.val_main_v14_apply, Read.val_main_v12_apply, Read.val_main_v9_apply,
    Read.val_main_v11_apply, Read.val_main_v7_apply, Read.val_main_v2_apply, Read.val_main_v1_apply,
    Read.val_main_v8_apply, Read.val_main_v5_apply, Read.val_main_v4_apply, Read.val_main_v6_apply,
    Read.val_main_v10_apply, Read.val_main_v13_apply]
  simp only [e1, e4, el, er, Read.val_main_v0_apply, Read.val_main_v3_apply, Read.val_main_cst_apply,
    Read.val_main_cst_0_apply, Read.val_main_cst_1_apply, Read.val_main_cst_2_apply, Ideal.mulf_def, Ideal.addf_def,
    Ideal.subf_def, Ideal.maximumf_def, Ideal.hostUnary_sqrt_def, Ideal.ofBits_def, Ideal.ofBits_zero_f32, zero_add]
  rfl

end Cert.ReferenceIdeal.RefValue

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KernelChunk.lean ====
/-
  The kernel body's arithmetic, read at one element.

  The body keeps the squared lengths of all rows of `x` in a scratch array, each repeated along its row; it sums the
  squares of the weight tile down its columns; and for each chunk of 512 rows it multiplies the chunk by the tile,
  forms `scratch + column squares - 2 · product`, floors it, and stores the floored number times its reciprocal root.
-/
import proofs.«134917_g25649544691929_pilotgen1_637_14_alg».proof.Proof.Gen.KernelIdeal.Skeleton
import proofs.«134917_g25649544691929_pilotgen1_637_14_alg».proof.Proof.EuclidSpec
import proofs.«134917_g25649544691929_pilotgen1_637_14_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Chunk

open Cert.KernelIdeal Cert.KernelIdeal.Gen Idealize.ShloMosaic Idealize.ShloMosaic.ValueIdx

/-- The scratch payload: every entry of row `r` is the squared length of row `r` of the loaded array. -/
theorem rowSq_pay (X : Vec Ideal S2048x1024 .f32) (r : Fin 2048) (l : Fin 1024) :
    k0_pay3 (F := Ideal) X (ix2 r l) = Euclid.rowSq (M := 2048) (K := 1024) X r := by
  unfold k0_pay3
  rw [shapeCast_self]
  rw [broadcastTo_apply _ broadcasts_S2048x1_S2048x1024 (ix2 r l) (ix2 r (0 : Fin 1)) (fun a => by
    match a with
    | ⟨0, _⟩ => show r.val = if (2048 : ℕ) = 1 then 0 else r.val; rw [if_neg (by decide)]
    | ⟨1, _⟩ => show 0 = if (1 : ℕ) = 1 then 0 else l.val; rw [if_pos rfl])]
  rw [shapeCast_self]
  rw [shapeCast_apply _ shapeCasts_S2048_S2048x1 (ix2 r (0 : Fin 1)) (ix1 r) (by
    rw [Shape.rowMajor_val_two, Shape.rowMajor_val_one]
    show r.val = r.val * 1 + 0
    omega)]
  refine (Ideal.multiReduction_add_single (mulf X X) 0x00000000#32 reduces_S2048x1024_S2048 _ _ (ix1 r)).trans ?_
  unfold Euclid.rowSq
  refine Finset.sum_congr rfl fun k _ => ?_
  have e : reduces_S2048x1024_S2048.lift (ix1 r) k = ix2 r k :=
    funext fun a => Fin.ext (by match a with | ⟨0, _⟩ => rfl | ⟨1, _⟩ => rfl)
  rw [e]
  rfl

/-- The column sums of the squared weight tile, kept as one row: entry `q` is the squared length of column `q`. -/
theorem colSq_pay (Wt : Vec Ideal S1024x1024 .f32) (q : Fin 1024) :
    k0_pay4 (F := Ideal) Wt (ix2 (0 : Fin 1) q) = Euclid.colSq (K := 1024) (N := 1024) Wt q := by
  unfold k0_pay4
  rw [shapeCast_a_1a_apply]
  refine (Ideal.multiReduction_add_single (mulf Wt Wt) 0x00000000#32 reduces_S1024x1024_S1024 _ _ (ix1 q)).trans ?_
  unfold Euclid.colSq
  refine Finset.sum_congr rfl fun k _ => ?_
  have e : reduces_S1024x1024_S1024.lift (ix1 q) k = ix2 k q :=
    funext fun a => Fin.ext (by match a with | ⟨0, _⟩ => rfl | ⟨1, _⟩ => rfl)
  rw [e]
  rfl

/-- One chunk's epilogue at (p, q): the floored combination of the scratch entry, the column's squared length and the
    chunk row's inner product with the column, times its reciprocal root. The product's dimension numbers may be any
    record that is the rows-by-columns one. -/
theorem epilogue_apply (d : DotDims S512x1024 S1024x1024 S512x1024) (hd : d = DotDims.plain 512 1024 1024)
    (xc : FVec Ideal S512x1024 .f32) (Wt : FVec Ideal S1024x1024 .f32) (w2 : FVec Ideal S1x1024 .f32)
    (sc : FVec Ideal S512x1024 .f32) (p : Fin 512) (q : Fin 1024) :
    mulf
      (maximumf (subf (addf sc (broadcastTo S512x1024 w2 broadcasts_S1x1024_S512x1024))
          (mulf (broadcast S512x1024 (Scalar.ofBits (F := Ideal) .f32 0x40000000#32))
            (matmul d none xc Wt (constant (F := Ideal) S512x1024 .f32 0x00000000#32))))
        (broadcast S512x1024 (Scalar.ofBits (F := Ideal) .f32 0x2B8CBCCC#32)))
      (rsqrt (maximumf (subf (addf sc (broadcastTo S512x1024 w2 broadcasts_S1x1024_S512x1024))
          (mulf (broadcast S512x1024 (Scalar.ofBits (F := Ideal) .f32 0x40000000#32))
            (matmul d none xc Wt (constant (F := Ideal) S512x1024 .f32 0x00000000#32))))
        (broadcast S512x1024 (Scalar.ofBits (F := Ideal) .f32 0x2B8CBCCC#32)))) (ix2 p q)
      = Euclid.timesRsqrt (Euclid.floored (sc (ix2 p q)) (w2 (ix2 (0 : Fin 1) q))
          (Euclid.inner (M := 512) (K := 1024) (N := 1024) xc Wt p q)) := by
  subst hd
  have eb := broadcastTo_1b_ab_apply (a := 512) (b := 1024) w2 broadcasts_S1x1024_S512x1024 p q
  have em := Cert.LibDense.matmul_plain_zero_apply (M := 512) (K := 1024) (N := 1024) none xc Wt p q
  show (max (sc (ix2 p q) + broadcastTo S512x1024 w2 broadcasts_S1x1024_S512x1024 (ix2 p q)
        - Ideal.ofBits .f32 0x40000000#32
          * FloatOps.matmul (DotDims.plain 512 1024 1024) none xc Wt (constant S512x1024 .f32 0x00000000#32) (ix2 p q))
        (Ideal.ofBits .f32 0x2B8CBCCC#32))
      * Ideal.rsqrt (max (sc (ix2 p q) + broadcastTo S512x1024 w2 broadcasts_S1x1024_S512x1024 (ix2 p q)
        - Ideal.ofBits .f32 0x40000000#32
          * FloatOps.matmul (DotDims.plain 512 1024 1024) none xc Wt (constant S512x1024 .f32 0x00000000#32) (ix2 p q))
        (Ideal.ofBits .f32 0x2B8CBCCC#32)) = _
  rw [eb, em]
  rfl

/-- The record the body's four products name is the rows-by-columns one. -/
theorem dot_plain : dot_S512x1024_S1024x1024_S512x1024_1_0_0_1_n_n = DotDims.plain 512 1024 1024 := rfl

/-- The first chunk's payload at (p, q). -/
theorem pay_chunk0 (Wt : Vec Ideal S1024x1024 .f32) (xc sc : Vec Ideal S512x1024 .f32) (p : Fin 512) (q : Fin 1024) :
    k0_pay5 (F := Ideal) Wt xc sc (ix2 p q)
      = Euclid.timesRsqrt (Euclid.floored (sc (ix2 p q)) (Euclid.colSq (K := 1024) (N := 1024) Wt q)
          (Euclid.inner (M := 512) (K := 1024) (N := 1024) xc Wt p q)) := by
  unfold k0_pay5
  rw [epilogue_apply _ dot_plain, colSq_pay]

/-- The second chunk's payload at (p, q). -/
theorem pay_chunk1 (Wt : Vec Ideal S1024x1024 .f32) (xc sc : Vec Ideal S512x1024 .f32) (p : Fin 512) (q : Fin 1024) :
    k0_pay6 (F := Ideal) Wt xc sc (ix2 p q)
      = Euclid.timesRsqrt (Euclid.floored (sc (ix2 p q)) (Euclid.colSq (K := 1024) (N := 1024) Wt q)
          (Euclid.inner (M := 512) (K := 1024) (N := 1024) xc Wt p q)) := by
  unfold k0_pay6
  rw [epilogue_apply _ dot_plain, colSq_pay]

/-- The third chunk's payload at (p, q), the column sums passed in. -/
theorem pay_chunk2 (Wt : Vec Ideal S1024x1024 .f32) (xc sc : Vec Ideal S512x1024 .f32) (p : Fin 512) (q : Fin 1024) :
    k0_pay1 (F := Ideal) Wt (k0_pay4 Wt) xc sc (ix2 p q)
      = Euclid.timesRsqrt (Euclid.floored (sc (ix2 p q)) (Euclid.colSq (K := 1024) (N := 1024) Wt q)
          (Euclid.inner (M := 512) (K := 1024) (N := 1024) xc Wt p q)) := by
  unfold k0_pay1
  rw [epilogue_apply _ dot_plain, colSq_pay]

/-- The fourth chunk's payload at (p, q), the column sums passed in. -/
theorem pay_chunk3 (Wt : Vec Ideal S1024x1024 .f32) (xc sc : Vec Ideal S512x1024 .f32) (p : Fin 512) (q : Fin 1024) :
    k0_pay2 (F := Ideal) Wt (k0_pay4 Wt) xc sc (ix2 p q)
      = Euclid.timesRsqrt (Euclid.floored (sc (ix2 p q)) (Euclid.colSq (K := 1024) (N := 1024) Wt q)
          (Euclid.inner (M := 512) (K := 1024) (N := 1024) xc Wt p q)) := by
  unfold k0_pay2
  rw [epilogue_apply _ dot_plain, colSq_pay]

end Cert.KernelIdeal.Chunk

end
-- ==== Proof.KernelBody.lean ====
/-
  What one grid step of the kernel leaves in its buffers, read at one element.

  A step sees the whole array `x`, one tile of 1024 columns of the weights, and a scratch array. At the first step it
  fills the scratch with the rows' squared lengths and then reads them back; at every later step it reads what the step
  before left there. In both cases the output tile it leaves is, at (r, q), the floored combination of the scratch
  entry (r, q), the squared length of the tile's column q and the inner product of row r with that column, times its
  reciprocal root: the body writes the tile in four bands of 512 rows, each band the same function of its rows.
-/
import proofs.«134917_g25649544691929_pilotgen1_637_14_alg».proof.Proof.Gen.KernelIdeal.Frame
import proofs.«134917_g25649544691929_pilotgen1_637_14_alg».proof.Proof.KernelChunk

set_option maxRecDepth 16384

noncomputable section

namespace Cert.KernelIdeal.Body

open Cert.KernelIdeal Cert.KernelIdeal.Gen Idealize.ShloMosaic Idealize.ShloMosaic.TcCoe Idealize.ShloMosaic.Tactic
open Idealize.ShloMosaic.ValueIdx Idealize.SL.Sem

/-- The zero offsets, however they are spelt. -/
theorem zero_off : (![0, 0] : Fin 2 → Nat) = fun _ => 0 := funext fun a => by fin_cases a <;> rfl

/-- The output tile's entry in row `r`, column `q`, from the array `x`, the weight tile and the scratch contents. -/
def entry (X : FVec Ideal S2048x1024 .f32) (Wt : FVec Ideal S1024x1024 .f32) (sc : FVec Ideal S2048x1024 .f32)
    (r : Fin 2048) (q : Fin 1024) : EReal :=
  Euclid.timesRsqrt (Euclid.floored (sc (ix2 r q)) (Euclid.colSq (K := 1024) (N := 1024) Wt q)
    (Euclid.inner (M := 2048) (K := 1024) (N := 1024) X Wt r q))

/-- The output tile as one function of its index. -/
def tile (X : FVec Ideal S2048x1024 .f32) (Wt : FVec Ideal S1024x1024 .f32) (sc : FVec Ideal S2048x1024 .f32) :
    S2048x1024.Idx → EReal := fun y => entry X Wt sc (y 0) (y 1)

theorem tile_apply (X : FVec Ideal S2048x1024 .f32) (Wt : FVec Ideal S1024x1024 .f32) (sc : FVec Ideal S2048x1024 .f32)
    (r : Fin 2048) (q : Fin 1024) : tile X Wt sc (ix2 r q) = entry X Wt sc r q := rfl

/-- A band of 512 rows starting at row `o`: its element (a, b) is the array's element (o + a, b). -/
theorem band_idx (o : ℕ) (inb : ∀ a, (![o, 0] : Fin 2 → ℕ) a + S512x1024.size a ≤ S2048x1024.size a) (ho : o + 512 ≤ 2048)
    (a : Fin 512) (k : Fin 1024) :
    (Rect.unit (s := S2048x1024) ![o, 0] S512x1024.size inb).idx (ix2 a k) = ix2 (⟨o + a.val, by have := a.isLt; omega⟩ : Fin 2048) k :=
  funext fun ax => Fin.ext (by
    match ax with
    | ⟨0, _⟩ => show o + 1 * a.val = o + a.val; omega
    | ⟨1, _⟩ => show 0 + 1 * k.val = k.val; omega)

/-- One band's payload is the tile's function on the band: the band's rows of `x` and of the scratch are the array's
    rows `o + a`. -/
theorem band_entry (o : ℕ) (inb : ∀ a, (![o, 0] : Fin 2 → ℕ) a + S512x1024.size a ≤ S2048x1024.size a) (ho : o + 512 ≤ 2048)
    (X : FVec Ideal S2048x1024 .f32) (Wt : FVec Ideal S1024x1024 .f32) (sc : FVec Ideal S2048x1024 .f32) (a : Fin 512) (b : Fin 1024) :
    Euclid.timesRsqrt (Euclid.floored (View.ld (Val := Elt Ideal) (e' := .f32) sc (Rect.unit (s := S2048x1024) ![o, 0] S512x1024.size inb) (ix2 a b))
        (Euclid.colSq (K := 1024) (N := 1024) Wt b)
        (Euclid.inner (M := 512) (K := 1024) (N := 1024) (View.ld (Val := Elt Ideal) (e' := .f32) X (Rect.unit (s := S2048x1024) ![o, 0] S512x1024.size inb)) Wt a b))
      = tile X Wt sc ((Rect.unit (s := S2048x1024) ![o, 0] S512x1024.size inb).emb (ix2 a b)) := by
  have he : (Rect.unit (s := S2048x1024) ![o, 0] S512x1024.size inb).emb (ix2 a b)
      = ix2 (⟨o + a.val, by have := a.isLt; omega⟩ : Fin 2048) b := band_idx o inb ho a b
  rw [he, tile_apply]
  unfold entry Euclid.inner
  show Euclid.timesRsqrt (Euclid.floored (sc ((Rect.unit (s := S2048x1024) ![o, 0] S512x1024.size inb).idx (ix2 a b))) _
      (∑ k : Fin 1024, X ((Rect.unit (s := S2048x1024) ![o, 0] S512x1024.size inb).idx (ix2 a k)) * Wt (ix2 k b))) = _
  simp only [band_idx o inb ho]

/-- A load, through any rectangle, of an array that one store has just filled whole reads the stored values there. -/
theorem readCov_filled {sig' : RefSig} {κ : Kind} {sp : Space} (v : View sig' κ sp S2048x1024 .f32)
    (inb0 : ∀ a, (![0, 0] : Fin 2 → ℕ) a + S2048x1024.size a ≤ S2048x1024.size a) (w : S2048x1024.Idx → Elt Ideal .f32)
    (r : Rect S2048x1024) :
    v.readCov [(⟨Rect.unit ![0, 0] S2048x1024.size inb0, w⟩ : View.Piece (Elt Ideal) S2048x1024 .f32)] r.toLoadRect = View.ld (Val := Elt Ideal) (e' := .f32) w r := by
  rw [View.readCov_eq_canon_ld _ _ _ (fun y => ⟨_, List.mem_singleton_self _, View.mem_set_unit_zero zero_off inb0 y⟩),
    View.canon_unit_zero zero_off]

/-- THE FIRST STEP fills the scratch with the rows' squared lengths of the array it loaded. -/
theorem scratch_first (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S2048x1024 .f32) (harg3 : arg3.IsWhole) (arg4 : Memref sig .tc .vmem S2048x1024 .f32) (harg4 : arg4.IsWhole) (hc0 : cond0_0 i)
    (x0 : Vec Ideal S2048x1024 .f32) (x1 : Vec Ideal S1024x1024 .f32) :
    sout0_A_0 c i arg1 harg1 arg2 harg2 arg3 harg3 arg4 harg4 hc0 x0 x1 = k0_pay3 (F := Ideal) x0 := by
  unfold sout0_A_0
  rw [View.read_writes_eq_canon _ _ _ (scover0_A_0 c i arg1 harg1 arg2 harg2 arg3 harg3 arg4 harg4 hc0 x0 x1)]
  unfold kernelRun0_A
  dsimp only
  sl_unfold_words
  rw [View.canon_unit_zero zero_off]
  simp only [View.readAt_eq_ld, harg1.read_unread, View.ld_unit_zero (S := S2048x1024) zero_off]

/-- THE FIRST STEP leaves the tile computed from the scratch it has just filled. -/
theorem out_first (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S2048x1024 .f32) (harg3 : arg3.IsWhole) (arg4 : Memref sig .tc .vmem S2048x1024 .f32) (harg4 : arg4.IsWhole) (hc0 : cond0_0 i)
    (x0 : Vec Ideal S2048x1024 .f32) (x1 : Vec Ideal S1024x1024 .f32) (y : S2048x1024.Idx) :
    out0_A_2 c i arg1 harg1 arg2 harg2 arg3 harg3 arg4 harg4 hc0 x0 x1 y = tile x0 x1 (k0_pay3 (F := Ideal) x0) y := by
  unfold out0_A_2
  rw [View.read_writes_eq_canon _ _ _ (cover0_A_2 c i arg1 harg1 arg2 harg2 arg3 harg3 arg4 harg4 hc0 x0 x1)]
  refine View.canon_apply_of_pieces (tile x0 x1 (k0_pay3 (F := Ideal) x0)) _ ?_ y (cover0_A_2 c i arg1 harg1 arg2 harg2 arg3 harg3 arg4 harg4 hc0 x0 x1 y)
  unfold kernelRun0_A
  dsimp only
  sl_unfold_words
  simp only [View.readAt_eq_ld, harg1.read_unread, harg2.read_unread,
    View.ld_unit_zero (S := S1024x1024) zero_off, View.ld_unit_zero (S := S2048x1024) zero_off]
  intro p hp
  simp only [List.mem_cons, List.not_mem_nil, or_false] at hp
  rcases hp with rfl | rfl | rfl | rfl
  · intro x
    obtain ⟨a, b, rfl⟩ : ∃ (a : Fin 512) (b : Fin 1024), x = ix2 a b := ⟨x 0, x 1, eq_ix2 x⟩
    dsimp only
    rw [readCov_filled]
    exact (Chunk.pay_chunk3 x1 _ _ a b).trans (band_entry 1536 _ (by omega) x0 x1 (k0_pay3 (F := Ideal) x0) a b)
  · intro x
    obtain ⟨a, b, rfl⟩ : ∃ (a : Fin 512) (b : Fin 1024), x = ix2 a b := ⟨x 0, x 1, eq_ix2 x⟩
    dsimp only
    rw [readCov_filled]
    exact (Chunk.pay_chunk2 x1 _ _ a b).trans (band_entry 1024 _ (by omega) x0 x1 (k0_pay3 (F := Ideal) x0) a b)
  · intro x
    obtain ⟨a, b, rfl⟩ : ∃ (a : Fin 512) (b : Fin 1024), x = ix2 a b := ⟨x 0, x 1, eq_ix2 x⟩
    dsimp only
    rw [readCov_filled]
    exact (Chunk.pay_chunk1 x1 _ _ a b).trans (band_entry 512 _ (by omega) x0 x1 (k0_pay3 (F := Ideal) x0) a b)
  · intro x
    obtain ⟨a, b, rfl⟩ : ∃ (a : Fin 512) (b : Fin 1024), x = ix2 a b := ⟨x 0, x 1, eq_ix2 x⟩
    dsimp only
    rw [readCov_filled]
    exact (Chunk.pay_chunk0 x1 _ _ a b).trans (band_entry 0 _ (by omega) x0 x1 (k0_pay3 (F := Ideal) x0) a b)

/-- A LATER STEP leaves the tile computed from the scratch as the step before left it. -/
theorem out_later (c : Dev nD) (i : grid0.Coords) (arg1 : Memref sig .tc .vmem S2048x1024 .f32) (harg1 : arg1.IsWhole) (arg2 : Memref sig .tc .vmem S1024x1024 .f32) (harg2 : arg2.IsWhole) (arg3 : Memref sig .tc .vmem S2048x1024 .f32) (harg3 : arg3.IsWhole) (arg4 : Memref sig .tc .vmem S2048x1024 .f32) (harg4 : arg4.IsWhole) (hc0 : ¬cond0_0 i)
    (x0 : Vec Ideal S2048x1024 .f32) (x1 : Vec Ideal S1024x1024 .f32) (xs0 : Vec Ideal S2048x1024 .f32) (y : S2048x1024.Idx) :
    out0_B_2 c i arg1 harg1 arg2 harg2 arg3 harg3 arg4 harg4 hc0 x0 x1 xs0 y = tile x0 x1 xs0 y := by
  unfold out0_B_2
  rw [View.read_writes_eq_canon _ _ _ (cover0_B_2 c i arg1 harg1 arg2 harg2 arg3 harg3 arg4 harg4 hc0 x0 x1 xs0)]
  refine View.canon_apply_of_pieces (tile x0 x1 xs0) _ ?_ y (cover0_B_2 c i arg1 harg1 arg2 harg2 arg3 harg3 arg4 harg4 hc0 x0 x1 xs0 y)
  unfold kernelRun0_B
  dsimp only
  sl_unfold_words
  simp only [View.readAt_eq_ld, harg1.read_unread, harg2.read_unread, harg4.read_unread,
    View.ld_unit_zero (S := S1024x1024) zero_off]
  intro p hp
  simp only [List.mem_cons, List.not_mem_nil, or_false] at hp
  rcases hp with rfl | rfl | rfl | rfl
  · intro x
    obtain ⟨a, b, rfl⟩ : ∃ (a : Fin 512) (b : Fin 1024), x = ix2 a b := ⟨x 0, x 1, eq_ix2 x⟩
    exact (Chunk.pay_chunk3 x1 _ _ a b).trans (band_entry 1536 _ (by omega) x0 x1 xs0 a b)
  · intro x
    obtain ⟨a, b, rfl⟩ : ∃ (a : Fin 512) (b : Fin 1024), x = ix2 a b := ⟨x 0, x 1, eq_ix2 x⟩
    exact (Chunk.pay_chunk2 x1 _ _ a b).trans (band_entry 1024 _ (by omega) x0 x1 xs0 a b)
  · intro x
    obtain ⟨a, b, rfl⟩ : ∃ (a : Fin 512) (b : Fin 1024), x = ix2 a b := ⟨x 0, x 1, eq_ix2 x⟩
    exact (Chunk.pay_chunk1 x1 _ _ a b).trans (band_entry 512 _ (by omega) x0 x1 xs0 a b)
  · intro x
    obtain ⟨a, b, rfl⟩ : ∃ (a : Fin 512) (b : Fin 1024), x = ix2 a b := ⟨x 0, x 1, eq_ix2 x⟩
    exact (Chunk.pay_chunk0 x1 _ _ a b).trans (band_entry 0 _ (by omega) x0 x1 xs0 a b)

end Cert.KernelIdeal.Body

end
-- ==== Proof.KernelLayer.lean ====
/-
  The kernel's result array: every entry is the floored squared distance times its reciprocal root.

  The grid has sixteen steps; step `t` sees all of `x` and columns `1024·t … 1024·t + 1023` of the weights and writes
  the same columns of the result. The scratch is filled at step 0 with the squared lengths of the rows of `x` and is
  never written again, so by induction on the step it holds them at every step. Each step's tile is then the layer's
  entries on its columns, and the sixteen tiles cover the result.
-/
import proofs.«134917_g25649544691929_pilotgen1_637_14_alg».proof.Proof.Gen.KernelIdeal.Value
import proofs.«134917_g25649544691929_pilotgen1_637_14_alg».proof.Proof.KernelBody

set_option maxRecDepth 16384

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The array `x` as the region finds it. -/
abbrev xarr (c : Dev nD) : FVec Ideal S2048x1024 .f32 := V m c main_arg0
/-- The weights as the region finds them. -/
abbrev warr (c : Dev nD) : FVec Ideal S1024x16384 .f32 := V m c main_arg1
/-- The block of `x` step `t` sees. -/
abbrev xblk (c : Dev nD) (t : Fin cfg0.N) : Vec Ideal S2048x1024 .f32 := iblk m c 0 t
/-- The weight tile step `t` sees. -/
abbrev wblk (c : Dev nD) (t : Fin cfg0.N) : Vec Ideal S1024x1024 .f32 := iblk m c 1 t

/-- The layer with the root spelt as the kernel spells it, as one function of the result's index. -/
def layer (X : FVec Ideal S2048x1024 .f32) (W : FVec Ideal S1024x16384 .f32) : S2048x16384.Idx → EReal :=
  fun i => Euclid.distByRsqrt (M := 2048) (K := 1024) (N := 16384) X W (i 0) (i 1)

theorem layer_apply (X : FVec Ideal S2048x1024 .f32) (W : FVec Ideal S1024x16384 .f32) (r : Fin 2048) (o : Fin 16384) :
    layer X W (ix2 r o) = Euclid.distByRsqrt (M := 2048) (K := 1024) (N := 16384) X W r o := rfl

/-- The printed index maps over the grid: `x`'s block never moves; the weights' and the result's block column is the step. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

theorem step_lt (t : Fin cfg0.N) : t.val < 16 := lt_of_lt_of_eq t.isLt (show cfg0.N = 16 from N_0)

/-- Every step sees the whole of `x`. -/
theorem xblk_eq (c : Dev nD) (t : Fin cfg0.N) : xblk m c t = xarr m c := by
  obtain ⟨e0, e1, -⟩ := idx_facts t
  funext y
  show V m c main_arg0 (((cfg0.win 0).blk t).view.emb y) = V m c main_arg0 y
  refine congrArg (V m c main_arg0) (funext fun a => Fin.ext ?_)
  match a with
  | ⟨0, _⟩ => show win0_0.index t (0 : Fin 2) * 2048 + 1 * (y 0).val = (y 0).val; omega
  | ⟨1, _⟩ => show win0_0.index t (1 : Fin 2) * 1024 + 1 * (y 1).val = (y 1).val; omega

/-- Step `t`'s weight tile at (k, q) is the weights at (k, 1024·t + q). -/
theorem wblk_apply (c : Dev nD) (t : Fin cfg0.N) (k q : Fin 1024) :
    wblk m c t (ix2 k q) = warr m c (ix2 k (⟨t.val * 1024 + q.val, by have := step_lt t; have := q.isLt; omega⟩ : Fin 16384)) := by
  obtain ⟨-, -, e2, e3, -⟩ := idx_facts t
  show V m c main_arg1 (((cfg0.win 1).blk t).view.emb (ix2 k q)) = V m c main_arg1 _
  refine congrArg (V m c main_arg1) (funext fun a => Fin.ext ?_)
  match a with
  | ⟨0, _⟩ => show win0_1.index t (0 : Fin 2) * 1024 + 1 * k.val = k.val; omega
  | ⟨1, _⟩ => show win0_1.index t (1 : Fin 2) * 1024 + 1 * q.val = t.val * 1024 + q.val; rw [e3]; omega

/-- THE SCRATCH after every step holds the squared lengths of the rows of `x`: filled at step 0, kept afterwards. -/
theorem scratch_eq (c : Dev nD) : ∀ (n : ℕ) (hn : n < cfg0.N), (outsAt0 m c n hn).2 = k0_pay3 (F := Ideal) (xarr m c)
  | 0, hn => by
    rw [outsAt0_A m c ⟨0, hn⟩ (Nat.zero_mod _)]
    dsimp only
    rw [Body.scratch_first]
    exact congrArg (k0_pay3 (F := Ideal)) (xblk_eq m c ⟨0, hn⟩)
  | n + 1, hn => by
    by_cases h0 : (n + 1) % 16 = 0
    · rw [outsAt0_A m c ⟨n + 1, hn⟩ h0]
      dsimp only
      rw [Body.scratch_first]
      exact congrArg (k0_pay3 (F := Ideal)) (xblk_eq m c ⟨n + 1, hn⟩)
    · rw [outsAt0_B m c ⟨n + 1, hn⟩ h0]
      dsimp only
      unfold sout0_B_0
      exact scratch_eq c n (Nat.lt_of_succ_lt hn)

/-- What step `t` leaves in the result's staging buffer: the tile computed from `x`, the step's weight tile and the
    rows' squared lengths. -/
theorem tile_eq (c : Dev nD) (t : Fin cfg0.N) (y : S2048x1024.Idx) :
    (outsAt0 m c t.val t.isLt).1 y = Body.tile (xarr m c) (wblk m c t) (k0_pay3 (F := Ideal) (xarr m c)) y := by
  by_cases h0 : t.val % 16 = 0
  · rw [outsAt0_A m c t h0]
    dsimp only
    rw [Body.out_first]
    show Body.tile (xblk m c t) (wblk m c t) (k0_pay3 (F := Ideal) (xblk m c t)) y = _
    rw [xblk_eq m c t]
  · rw [outsAt0_B m c t h0]
    dsimp only
    rw [Body.out_later, scratch_eq m c]
    show Body.tile (xblk m c t) (wblk m c t) (k0_pay3 (F := Ideal) (xarr m c)) y = _
    rw [xblk_eq m c t]

/-- The tile's entry (r, q) at step `t` is the layer's entry (r, 1024·t + q). -/
theorem tile_layer (c : Dev nD) (t : Fin cfg0.N) (r : Fin 2048) (q : Fin 1024) :
    Body.tile (xarr m c) (wblk m c t) (k0_pay3 (F := Ideal) (xarr m c)) (ix2 r q)
      = layer (xarr m c) (warr m c) (ix2 r (⟨t.val * 1024 + q.val, by have := step_lt t; have := q.isLt; omega⟩ : Fin 16384)) := by
  rw [Body.tile_apply, layer_apply]
  unfold Body.entry Euclid.distByRsqrt Euclid.sqDist Euclid.colSq Euclid.inner
  rw [Chunk.rowSq_pay]
  simp only [wblk_apply m c t]

/-- WHAT STEP `t` WRITES BACK is block `t` of the layer of the arrays as the region finds them. -/
theorem flushed_eq (c : Dev nD) (t : Fin cfg0.N) :
    (dats m 0 c).flushed 2 t = ((cfg0.win 2).blk t).view.read (Elt Ideal) (layer (xarr m c) (warr m c)) := by
  obtain ⟨-, -, -, -, e4, e5⟩ := idx_facts t
  rw [Value.flushed2]
  funext y
  obtain ⟨r, q, rfl⟩ : ∃ (r : Fin 2048) (q : Fin 1024), y = ix2 r q := ⟨y 0, y 1, eq_ix2 y⟩
  show (outsAt0 m c t.val t.isLt).1 (ix2 r q) = layer (xarr m c) (warr m c) (((cfg0.win 2).blk t).view.emb (ix2 r q))
  rw [tile_eq, tile_layer]
  refine congrArg (layer (xarr m c) (warr m c)) (funext fun a => Fin.ext ?_)
  match a with
  | ⟨0, _⟩ => show r.val = win0_2.index t (0 : Fin 2) * 2048 + 1 * r.val; omega
  | ⟨1, _⟩ => show t.val * 1024 + q.val = win0_2.index t (1 : Fin 2) * 1024 + 1 * q.val; rw [e5]; omega

/-- An index of the result is in step `t`'s block iff each coordinate is in the block's range on its axis. -/
theorem mem_blk (t : Fin cfg0.N) (i : S2048x16384.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- The sixteen blocks cover the result: column `o` is in the block of step `o / 1024`. -/
theorem cover (i : S2048x16384.Idx) : ∃ t : Fin cfg0.N, (cfg0.win 2).flush t = true ∧ i ∈ ((cfg0.win 2).blk t).view.set := by
  have hi0 : (i 0).val < 2048 := (i 0).isLt
  have hi1 : (i 1).val < 16384 := (i 1).isLt
  let t : Fin cfg0.N := ⟨(i 1).val / 1024, by rw [show cfg0.N = 16 from N_0]; omega⟩
  obtain ⟨-, -, -, -, e4, e5⟩ := idx_facts t
  have ht : t.val = (i 1).val / 1024 := rfl
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- THE RESULT ARRAY after the run is the layer of the argument arrays. -/
theorem final (c : Dev nD) : (dats m 0 c).arrAt 2 cfg0.N = layer (xarr m c) (warr m c) :=
  (dats m 0 c).arrAt_eq_of_cover 2 (layer (xarr m c) (warr m c)) (fun t _ => flushed_eq m c t) cover

/-- The run, with the result named: the layer of the arguments, which end unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Layer

end
-- ==== Proof.lean ====
/-
  The Euclidean layer: `out[b, o] = ‖x[b, :] - w[:, o]‖`, computed by both programs from the expansion
  `d = max (‖x‖² + ‖w‖² - 2·⟨x, w⟩) ε` of the squared distance, floored at a small positive `ε`.

  The kernel walks the weights in sixteen tiles of 1024 columns. At the first tile it stores the squared lengths of the
  rows of `x` in a scratch array and keeps them for the later tiles; per tile it sums the squares of the tile's
  columns, multiplies `x` by the tile in four bands of 512 rows, and writes `d · d^(-1/2)`. The reference computes the
  three sums over the whole arrays and writes `√d`. With real inputs all three sums are real, so `d` is a real number at
  least `ε > 0`, and for such a number `d · (√d)⁻¹ = √d`; at `d = +∞` the two spellings would differ, which is where
  the precondition (every input entry finite) is used.

  Modules: EuclidSpec (the layer on the extended reals and the law between the two spellings), Finite (the precondition
  read back), RefValue (the reference at an index), KernelChunk (the body's arithmetic at an index), KernelBody (what one
  grid step leaves), KernelLayer (the scratch invariant, the tiles, the result array), LibDense (a matrix product read at
  an index).
-/
import proofs.«134917_g25649544691929_pilotgen1_637_14_alg».proof.Defs
import proofs.«134917_g25649544691929_pilotgen1_637_14_alg».proof.Proof.Gen.Kernel
import proofs.«134917_g25649544691929_pilotgen1_637_14_alg».proof.Proof.Gen.Kernel.Skeleton
import proofs.«134917_g25649544691929_pilotgen1_637_14_alg».proof.Proof.Gen.Kernel.Launch
import proofs.«134917_g25649544691929_pilotgen1_637_14_alg».proof.Proof.Gen.Kernel.Points
import proofs.«134917_g25649544691929_pilotgen1_637_14_alg».proof.Proof.Gen.Kernel.Frame
import proofs.«134917_g25649544691929_pilotgen1_637_14_alg».proof.Proof.Gen.KernelIdeal
import proofs.«134917_g25649544691929_pilotgen1_637_14_alg».proof.Proof.Gen.KernelIdeal.Skeleton
import proofs.«134917_g25649544691929_pilotgen1_637_14_alg».proof.Proof.Gen.KernelIdeal.Launch
import proofs.«134917_g25649544691929_pilotgen1_637_14_alg».proof.Proof.Gen.KernelIdeal.Points
import proofs.«134917_g25649544691929_pilotgen1_637_14_alg».proof.Proof.Gen.KernelIdeal.Frame
import proofs.«134917_g25649544691929_pilotgen1_637_14_alg».proof.Proof.Gen.ReferenceIdeal
import proofs.«134917_g25649544691929_pilotgen1_637_14_alg».proof.Proof.Gen.Pre_finite_inputs
import proofs.«134917_g25649544691929_pilotgen1_637_14_alg».proof.Proof.Gen.KernelIdeal.Value
import proofs.«134917_g25649544691929_pilotgen1_637_14_alg».proof.Proof.Gen.ReferenceIdeal.Run
import proofs.«134917_g25649544691929_pilotgen1_637_14_alg».proof.Proof.Gen.ReferenceIdeal.Read
import proofs.«134917_g25649544691929_pilotgen1_637_14_alg».proof.Proof.EuclidSpec
import proofs.«134917_g25649544691929_pilotgen1_637_14_alg».proof.Proof.Finite
import proofs.«134917_g25649544691929_pilotgen1_637_14_alg».proof.Proof.RefValue
import proofs.«134917_g25649544691929_pilotgen1_637_14_alg».proof.Proof.KernelLayer
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and the weights, both finite, the kernel's result `d · d^(-1/2)` and the
    reference's `√d` are the same array: entry by entry `d` is a real number at least `ε > 0`. -/
theorem algebraic : Cert.algebraic_KernelIdeal_ReferenceIdeal := by
  intro m ρ m' ρ' hpre hagree
  refine ⟨fun c => Cert.KernelIdeal.Layer.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v15_eq]
  obtain ⟨hX, hW⟩ := Cert.Pre_finite_inputs.Finite.entries_real _ _ (hpre c)
  funext i
  obtain ⟨r, o, rfl⟩ : ∃ (r : Fin 2048) (o : Fin 16384), i = ix2 r o := ⟨i 0, i 1, eq_ix2 i⟩
  rw [Cert.ReferenceIdeal.RefValue.result_apply]
  show _ = Cert.Euclid.distByRsqrt (M := 2048) (K := 1024) (N := 16384) _ _ r o
  exact (Cert.Euclid.distByRsqrt_eq_dist _ _ hX hW r o).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
